-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S2x1677721 : Shape := ⟨2, ![2, 1677721]⟩
abbrev S1677721 : Shape := ⟨1, ![1677721]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1677721 : S_.BroadcastsInDim S1677721 (![] : Fin 0 → Fin S1677721.rank)
  reducesTo_S1677721_S_d0 : S1677721.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S2x1677721 32) (main_arg2 : FVec F S1677721 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1677721 .f32 := Host.absf main_arg2
  let main_cst_0 : FVec F S_ .f32 := constant S_ .f32 0x7F800000#32
  let main_v5 : FVec F S1677721 .f32 := broadcastInDim S1677721 ![] bcast_S_S1677721 main_cst_0
  let main_v6 : IVec S1677721 1 := cmpf .olt main_v4 main_v5
  let main_c_1 : IVec S_ 1 := constantI S_ 1 1#1
  let main_v7 : IVec S_ 1 := (fun x v => Host.reduce IntOp.andi x v reducesTo_S1677721_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S2x1677721 : Shape := ⟨2, ![2, 1677721]⟩
abbrev S1677721 : Shape := ⟨1, ![1677721]⟩
abbrev S4096 : Shape := ⟨1, ![4096]⟩
abbrev S_ : Shape := ⟨0, ![]⟩
abbrev S4096x4096 : Shape := ⟨2, ![4096, 4096]⟩
abbrev S1x1677721 : Shape := ⟨2, ![1, 1677721]⟩
abbrev S1677721x1 : Shape := ⟨2, ![1677721, 1]⟩
abbrev S1677721x2 : Shape := ⟨2, ![1677721, 2]⟩
abbrev S1x4096 : Shape := ⟨2, ![1, 4096]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 32
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S2x1677721, .i32⟩
  | .hbm, ⟨2, _⟩ => ⟨S1677721, .f32⟩
  | .hbm, ⟨3, _⟩ => ⟨S4096, .f32⟩
  | .hbm, ⟨4, _⟩ => ⟨S_, .f32⟩
  | .hbm, ⟨5, _⟩ => ⟨S4096x4096, .f32⟩
  | .hbm, ⟨6, _⟩ => ⟨S1x1677721, .i32⟩
  | .hbm, ⟨7, _⟩ => ⟨S1677721, .i32⟩
  | .hbm, ⟨8, _⟩ => ⟨S1x1677721, .i32⟩
  | .hbm, ⟨9, _⟩ => ⟨S1677721, .i32⟩
  | .hbm, ⟨10, _⟩ => ⟨S_, .i32⟩
  | .hbm, ⟨11, _⟩ => ⟨S1677721, .i32⟩
  | .hbm, ⟨12, _⟩ => ⟨S1677721, .i1⟩
  | .hbm, ⟨13, _⟩ => ⟨S_, .i32⟩
  | .hbm, ⟨14, _⟩ => ⟨S1677721, .i32⟩
  | .hbm, ⟨15, _⟩ => ⟨S1677721, .i32⟩
  | .hbm, ⟨16, _⟩ => ⟨S1677721, .i32⟩
  | .hbm, ⟨17, _⟩ => ⟨S_, .i32⟩
  | .hbm, ⟨18, _⟩ => ⟨S1677721, .i32⟩
  | .hbm, ⟨19, _⟩ => ⟨S1677721, .i1⟩
  | .hbm, ⟨20, _⟩ => ⟨S_, .i32⟩
  | .hbm, ⟨21, _⟩ => ⟨S1677721, .i32⟩
  | .hbm, ⟨22, _⟩ => ⟨S1677721, .i32⟩
  | .hbm, ⟨23, _⟩ => ⟨S1677721, .i32⟩
  | .hbm, ⟨24, _⟩ => ⟨S1677721x1, .i32⟩
  | .hbm, ⟨25, _⟩ => ⟨S1677721x1, .i32⟩
  | .hbm, ⟨26, _⟩ => ⟨S1677721x2, .i32⟩
  | .hbm, ⟨27, _⟩ => ⟨S4096x4096, .f32⟩
  | .hbm, ⟨28, _⟩ => ⟨S8192x4096, .bf16⟩
  | .hbm, ⟨29, _⟩ => ⟨S4096x4096, .bf16⟩
  | .hbm, ⟨30, _⟩ => ⟨S1x4096, .f32⟩
  | .hbm, ⟨31, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096x4096 : S_.BroadcastsInDim S4096x4096 (![] : Fin 0 → Fin S4096x4096.rank)
  slices_S2x1677721_S1x1677721_0_0 : S2x1677721.Slices ![0, 0] S1x1677721
  shapeCasts_S1x1677721_S1677721 : S1x1677721.ShapeCasts S1677721
  slices_S2x1677721_S1x1677721_1_0 : S2x1677721.Slices ![1, 0] S1x1677721
  bcast_S_S1677721 : S_.BroadcastsInDim S1677721 (![] : Fin 0 → Fin S1677721.rank)
  bcast_S1677721_S1677721x1_0 : S1677721.BroadcastsInDim S1677721x1 (![0] : Fin 1 → Fin S1677721x1.rank)
  concatenates_S1677721x1_S1677721x1_S1677721x2_d1 : Shape.Concatenates [S1677721x1, S1677721x1] S1677721x2 1
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  scatter_S4096x4096_S1677721x2_S1677721_n_01_01_1_wf : ScatterDims.WF S4096x4096 S1677721x2 S1677721 [] [0, 1] [0, 1] 1
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def scatter_S4096x4096_S1677721x2_S1677721_n_01_01_1 : ScatterDims S4096x4096 S1677721x2 S1677721 where
  updateWindowDims := []
  insertedWindowDims := [0, 1]
  scatterDimsToOperandDims := [0, 1]
  indexVectorDim := 1
  wf := scatter_S4096x4096_S1677721x2_S1677721_n_01_01_1_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v19) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S2x1677721 : Shape := ⟨2, ![2, 1677721]⟩
abbrev S1677721 : Shape := ⟨1, ![1677721]⟩
abbrev S4096 : Shape := ⟨1, ![4096]⟩
abbrev S_ : Shape := ⟨0, ![]⟩
abbrev S4096x4096 : Shape := ⟨2, ![4096, 4096]⟩
abbrev S1x1677721 : Shape := ⟨2, ![1, 1677721]⟩
abbrev S1677721x1 : Shape := ⟨2, ![1677721, 1]⟩
abbrev S1677721x2 : Shape := ⟨2, ![1677721, 2]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x1677721, .i32⟩
  | .hbm, ⟨2, _⟩ => ⟨S1677721, .f32⟩
  | .hbm, ⟨3, _⟩ => ⟨S4096, .f32⟩
  | .hbm, ⟨4, _⟩ => ⟨S_, .f32⟩
  | .hbm, ⟨5, _⟩ => ⟨S4096x4096, .f32⟩
  | .hbm, ⟨6, _⟩ => ⟨S1x1677721, .i32⟩
  | .hbm, ⟨7, _⟩ => ⟨S1677721, .i32⟩
  | .hbm, ⟨8, _⟩ => ⟨S1x1677721, .i32⟩
  | .hbm, ⟨9, _⟩ => ⟨S1677721, .i32⟩
  | .hbm, ⟨10, _⟩ => ⟨S_, .i32⟩
  | .hbm, ⟨11, _⟩ => ⟨S1677721, .i32⟩
  | .hbm, ⟨12, _⟩ => ⟨S1677721, .i1⟩
  | .hbm, ⟨13, _⟩ => ⟨S_, .i32⟩
  | .hbm, ⟨14, _⟩ => ⟨S1677721, .i32⟩
  | .hbm, ⟨15, _⟩ => ⟨S1677721, .i32⟩
  | .hbm, ⟨16, _⟩ => ⟨S1677721, .i32⟩
  | .hbm, ⟨17, _⟩ => ⟨S_, .i32⟩
  | .hbm, ⟨18, _⟩ => ⟨S1677721, .i32⟩
  | .hbm, ⟨19, _⟩ => ⟨S1677721, .i1⟩
  | .hbm, ⟨20, _⟩ => ⟨S_, .i32⟩
  | .hbm, ⟨21, _⟩ => ⟨S1677721, .i32⟩
  | .hbm, ⟨22, _⟩ => ⟨S1677721, .i32⟩
  | .hbm, ⟨23, _⟩ => ⟨S1677721, .i32⟩
  | .hbm, ⟨24, _⟩ => ⟨S1677721x1, .i32⟩
  | .hbm, ⟨25, _⟩ => ⟨S1677721x1, .i32⟩
  | .hbm, ⟨26, _⟩ => ⟨S1677721x2, .i32⟩
  | .hbm, ⟨27, _⟩ => ⟨S4096x4096, .f32⟩
  | .hbm, ⟨28, _⟩ => ⟨S4096x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S2x1677721_S1x1677721_0_0 : S2x1677721.Slices ![0, 0] S1x1677721
  shapeCasts_S1x1677721_S1677721 : S1x1677721.ShapeCasts S1677721
  slices_S2x1677721_S1x1677721_1_0 : S2x1677721.Slices ![1, 0] S1x1677721
  bcast_S_S1677721 : S_.BroadcastsInDim S1677721 (![] : Fin 0 → Fin S1677721.rank)
  bcast_S1677721_S1677721x1_0 : S1677721.BroadcastsInDim S1677721x1 (![0] : Fin 1 → Fin S1677721x1.rank)
  concatenates_S1677721x1_S1677721x1_S1677721x2_d1 : Shape.Concatenates [S1677721x1, S1677721x1] S1677721x2 1
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S4096x4096_S1677721x2_S1677721_n_01_01_1_wf : ScatterDims.WF S4096x4096 S1677721x2 S1677721 [] [0, 1] [0, 1] 1
  dot_S8192x4096_S4096x4096_S8192x4096_1_0_0_1_n_n_wf : DotDims.WF S8192x4096 S4096x4096 S8192x4096 [1] [0] [0] [1] [] []

variable [Facts₀]

def scatter_S4096x4096_S1677721x2_S1677721_n_01_01_1 : ScatterDims S4096x4096 S1677721x2 S1677721 where
  updateWindowDims := []
  insertedWindowDims := [0, 1]
  scatterDimsToOperandDims := [0, 1]
  indexVectorDim := 1
  wf := scatter_S4096x4096_S1677721x2_S1677721_n_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Affine.lean ====
/-
  The dense affine map that both programs compute once the sparse weights have been laid out as a matrix:

      out[b, o] = (Σ_k x[b, k] · w[o, k]) + bias[o]

  over the extended reals, for x of extent [8192, 4096], w of extent [4096, 4096] with one ROW per output feature, and bias of
  extent [4096].  It is stated once, over literal shapes and with every index built from its coordinates, so that each side
  can be compared with it element by element.  Nothing here opens the weights: how the matrix w is filled from the
  coordinate list is the same host computation in both programs and stays a name.
-/
import Idealize.ShloMosaic.Lib.ValueIdx

noncomputable section

open scoped BigOperators

namespace Cert.Affine

open Idealize.ShloMosaic Idealize.ShloMosaic.ValueIdx

/-- The activations' and the result's extent. -/
abbrev Sx : Shape := ⟨2, ![8192, 4096]⟩
/-- The weight matrix's extent: output features by input features. -/
abbrev Sw : Shape := ⟨2, ![4096, 4096]⟩
/-- The bias vector's extent. -/
abbrev Sb : Shape := ⟨1, ![4096]⟩

/-- Row `b` of the activations against row `o` of the weights. -/
def rowDot (x : FVec Ideal Sx .f32) (w : FVec Ideal Sw .f32) (b : Fin 8192) (o : Fin 4096) : EReal :=
  ∑ k : Fin 4096, x (ix2 b k) * w (ix2 o k)

/-- The affine map: at (b, o), row `b` of `x` against row `o` of `w`, plus `bias[o]`. -/
def affine (x : FVec Ideal Sx .f32) (w : FVec Ideal Sw .f32) (bias : FVec Ideal Sb .f32) : FVec Ideal Sx .f32 :=
  fun i => rowDot x w (i 0) (i 1) + bias (ix1 (i 1))

theorem affine_apply (x : FVec Ideal Sx .f32) (w : FVec Ideal Sw .f32) (bias : FVec Ideal Sb .f32) (b : Fin 8192) (o : Fin 4096) :
    affine x w bias (ix2 b o) = (∑ k : Fin 4096, x (ix2 b k) * w (ix2 o k)) + bias (ix1 o) := rfl

end Cert.Affine

end
-- ==== Proof.RefAffine.lean ====
/-
  The reference is the affine map.  After filling the weight matrix w (one row per output feature) it transposes w,
  contracts the activations' second axis with the transpose's first, and adds the bias broadcast down the rows.  Read at
  (b, o): the product's left factor is x[b, k]; its right factor is the transpose at (k, o), which is w[o, k]; the bias term
  is bias[o].  So the last stage is `affine x w bias` with w the stage that holds the filled matrix, whatever that stage
  computes: it is never opened.
-/
import proofs.«138253_j82935818485772_1_alg».proof.Proof.Gen.ReferenceIdeal.Read
import proofs.«138253_j82935818485772_1_alg».proof.Proof.Affine

noncomputable section

open scoped BigOperators

namespace Cert.ReferenceIdeal.RefAffine

open Cert.ReferenceIdeal Cert.ReferenceIdeal.Gen Cert.ReferenceIdeal.Read Idealize.ShloMosaic Idealize.ShloMosaic.ValueIdx Cert.Affine

/-- The reference's result stage is the affine map of the activations, the filled weight matrix and the bias. -/
theorem result_eq (x0 : (⟨S8192x4096, .f32⟩ : BufTy).Contents (Elt Ideal)) (x1 : (⟨S2x1677721, .i32⟩ : BufTy).Contents (Elt Ideal))
    (x2 : (⟨S1677721, .f32⟩ : BufTy).Contents (Elt Ideal)) (x3 : (⟨S4096, .f32⟩ : BufTy).Contents (Elt Ideal)) :
    val_main_v23 (F := Ideal) x0 x1 x2 x3 = affine x0 (val_main_v18 (F := Ideal) x1 x2) x3 := by
  funext i
  obtain ⟨b, o, rfl⟩ : ∃ (b : Fin 8192) (o : Fin 4096), i = ix2 b o := ⟨i 0, i 1, eq_ix2 i⟩
  -- the left factor sits in row b of the activations
  have hl : ∀ k : Fin 4096, lidx_main_v20 (ix2 b o) k = ix2 b k := fun k => funext fun a => by
    match a with
    | ⟨0, _⟩ => rfl
    | ⟨1, _⟩ => rfl
  -- the right factor: the transpose at (k, o) is the matrix at (o, k)
  have hr : ∀ k : Fin 4096, idx_main_v19 (ridx_main_v20 (ix2 b o) k) = ix2 o k := fun k => funext fun a => by
    match a with
    | ⟨0, _⟩ => rfl
    | ⟨1, _⟩ => rfl
  -- the bias broadcast down the rows reads entry o
  have hb : idx_main_v21 (idx_main_v22 (ix2 b o)) = ix1 o := funext fun a => by
    match a with
    | ⟨0, _⟩ => rfl
  rw [val_main_v23_apply, val_main_v20_apply, val_main_v22_apply, val_main_v21_apply, affine_apply, hb]
  simp only [val_main_v19_apply, hl, hr]
  rfl

end Cert.ReferenceIdeal.RefAffine

end
-- ==== Proof.TileAffine.lean ====
/-
  One grid point's arithmetic, read at an index.  The body multiplies a [512, 4096] block of activations with a
  [1024, 4096] block of weight ROWS, contracting the second axis of both into a zero accumulator, and adds a [1, 1024]
  block of the bias broadcast down the rows.  So at (p, q) of the [512, 1024] result it holds

      (Σ_k xb[p, k] · wb[q, k]) + bb[0, q].

  The contraction's sum runs over the product's one-axis contraction index; it is carried to a sum over `Fin 4096` by the
  bijection between that index and its one coordinate, and the operand indices are read off the dimension numbers axis by
  axis: the free axis of the left operand follows the result's row, the free axis of the right operand the result's column,
  and both contracted axes follow `k`.
-/
import proofs.«138253_j82935818485772_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The left operand's free axis reads the result's row. -/
theorem lhs_free (j : S512x1024.Idx) (κ : dot_S512x4096_S1024x4096_S512x1024_1_1_0_0_n_n.contr.Idx) :
    (dot_S512x4096_S1024x4096_S512x1024_1_1_0_0_n_n.lhsIdx j κ 0).val = (j 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
/-- The left operand's contracted axis reads the contraction's coordinate. -/
theorem lhs_contr (j : S512x1024.Idx) (κ : dot_S512x4096_S1024x4096_S512x1024_1_1_0_0_n_n.contr.Idx) :
    (dot_S512x4096_S1024x4096_S512x1024_1_1_0_0_n_n.lhsIdx j κ 1).val = (κ ⟨0, by decide⟩).val :=
  dot_S512x4096_S1024x4096_S512x1024_1_1_0_0_n_n.lhsIdx_val_of_single rfl j κ
/-- The right operand's free axis reads the result's column: the right operand is a block of weight ROWS. -/
theorem rhs_free (j : S512x1024.Idx) (κ : dot_S512x4096_S1024x4096_S512x1024_1_1_0_0_n_n.contr.Idx) :
    (dot_S512x4096_S1024x4096_S512x1024_1_1_0_0_n_n.rhsIdx j κ 0).val = (j 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
/-- The right operand's contracted axis reads the contraction's coordinate. -/
theorem rhs_contr (j : S512x1024.Idx) (κ : dot_S512x4096_S1024x4096_S512x1024_1_1_0_0_n_n.contr.Idx) :
    (dot_S512x4096_S1024x4096_S512x1024_1_1_0_0_n_n.rhsIdx j κ 1).val = (κ ⟨0, by decide⟩).val :=
  dot_S512x4096_S1024x4096_S512x1024_1_1_0_0_n_n.rhsIdx_val_of_single rfl j κ

/-- The product into a zero accumulator at (p, q): row `p` of the activation block against row `q` of the weight block. -/
theorem product_apply (xb : FVec Ideal S512x4096 .bf16) (wb : FVec Ideal S1024x4096 .bf16) (p : Fin 512) (q : Fin 1024) :
    matmul (F := Ideal) dot_S512x4096_S1024x4096_S512x1024_1_1_0_0_n_n none xb wb (constant (F := Ideal) S512x1024 .f32 0x00000000#32) (ix2 p q)
      = ∑ k : Fin 4096, xb (ix2 p k) * wb (ix2 q k) := by
  refine (Ideal.matmul_constant_zero_apply dot_S512x4096_S1024x4096_S512x1024_1_1_0_0_n_n none xb wb (ix2 p q)).trans ?_
  rw [← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p q) ((contrEquiv1 dot_S512x4096_S1024x4096_S512x1024_1_1_0_0_n_n 4096 rfl rfl).symm k) = ix2 p k := funext fun a => Fin.ext (by
    match a with
    | ⟨0, _⟩ => exact lhs_free _ _
    | ⟨1, _⟩ => exact (lhs_contr _ _).trans hk)
  have er : dot_S512x4096_S1024x4096_S512x1024_1_1_0_0_n_n.rhsIdx (ix2 p q) ((contrEquiv1 dot_S512x4096_S1024x4096_S512x1024_1_1_0_0_n_n 4096 rfl rfl).symm k) = ix2 q k := funext fun a => Fin.ext (by
    match a with
    | ⟨0, _⟩ => exact rhs_free _ _
    | ⟨1, _⟩ => exact (rhs_contr _ _).trans hk)
  rw [el, er]

/-- The bias block broadcast down the rows, at (p, q), is its entry in column `q`. -/
theorem biasRow_apply (bb : FVec Ideal S1x1024 .f32) (p : Fin 512) (q : Fin 1024) :
    broadcastTo S512x1024 bb broadcasts_S1x1024_S512x1024 (ix2 p q) = bb (ix2 (0 : Fin 1) q) :=
  broadcastTo_apply bb broadcasts_S1x1024_S512x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- What the body stores, at (p, q) of its [512, 1024] block. -/
theorem tile_apply (xb : FVec Ideal S512x4096 .bf16) (wb : FVec Ideal S1024x4096 .bf16) (bb : FVec Ideal S1x1024 .f32) (p : Fin 512) (q : Fin 1024) :
    k0_pay1 (F := Ideal) xb wb bb (ix2 p q) = (∑ k : Fin 4096, xb (ix2 p k) * wb (ix2 q k)) + bb (ix2 (0 : Fin 1) q) := by
  unfold k0_pay1
  rw [addf_apply, shapeCast_self, shapeCast_self, shapeCast_self, product_apply, biasRow_apply]

end Cert.KernelIdeal.Tile

end
-- ==== Proof.Staged.lean ====
/-
  What the region is given.  The grid is 4 column bands (1024 output features each) by 16 row bands (512 batch rows each).
  The arrays the region reads are what the host operations before it leave: the activations after a change of float format,
  which over the extended reals is the identity; the filled weight matrix after the same change of format, which is kept as
  a name here; and the bias as a one-row matrix.  At the point in column band J and row band I the body is given rows
  512·I … of the activations, rows 1024·J … of the weight matrix and columns 1024·J … of the bias row, each over all 4096
  input features.
-/
import proofs.«138253_j82935818485772_1_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Staged

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The arrays the region reads -/

/-- The activations reach the region unchanged: the change of float format is the identity. -/
theorem staged_x (c : Dev nD) : (V m c main_v19 : S8192x4096.Idx → EReal) = m ((c : Thread nD τ).loc main_arg0) := by
  dsimp only [Gen.V, Gen.hostOps0]; after_results; rfl

/-- The bias reaches the region as a one-row matrix. -/
theorem staged_bias (c : Dev nD) :
    (V m c main_v21 : S1x4096.Idx → EReal) = shapeCast S1x4096 (m ((c : Thread nD τ).loc main_arg3)) shapeCasts_S4096_S1x4096 := by
  dsimp only [Gen.V, Gen.hostOps0]; after_results; rfl

/-- Entry (0, n) of that row is `bias[n]`. -/
theorem staged_bias_apply (c : Dev nD) (z : Fin 1) (n : Fin 4096) :
    (V m c main_v21 : S1x4096.Idx → EReal) (ix2 z n) = (m ((c : Thread nD τ).loc main_arg3) : S4096.Idx → EReal) (ix1 n) := by
  rw [staged_bias]
  refine shapeCast_apply _ shapeCasts_S4096_S1x4096 (ix2 z n) (ix1 n) ?_
  rw [Shape.rowMajor_val_one, Shape.rowMajor_val_two]
  have hz : z.val = 0 := by omega
  show n.val = z.val * 4096 + n.val
  omega

/-- The weight matrix as the region reads it: the array the weights' window stages. -/
abbrev weights (c : Dev nD) : FVec Ideal S4096x4096 .bf16 := V m c (Pipeline.arrRef spec0 1)

/-- That array is the buffer the host wrote the narrowed matrix to. -/
theorem weights_eq (c : Dev nD) : (weights m c : S4096x4096.Idx → EReal) = V m c main_v20 := rfl

/-! ## The index maps over the grid -/

/-- Decided over the 64 points: the activations' block follows the result's row band and spans all input features; the
    weights' block follows the result's column band and spans all input features; the bias block follows the column band;
    the bands stay in range. -/
theorem bands : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) < 16 ∧ win0_3.index t (1 : Fin 2) < 4 :=
  (by decide +kernel : ∀ t : Fin grid0.N, _)

/-- Every pair of a row band and a column band is some point's. -/
theorem bands_onto : ∀ (I : Fin 16) (J : Fin 4), ∃ t : Fin cfg0.N, win0_3.index t = ![I.val, J.val] :=
  (by decide +kernel : ∀ (I : Fin 16) (J : Fin 4), ∃ t : Fin grid0.N, win0_3.index t = ![I.val, J.val])

/-! ## The blocks the body is given -/

/-- Entry (p, k) of the activations' block at point `t` is the activations at row `r`, for `r` the `p`-th row of `t`'s row band. -/
theorem xblk_apply (c : Dev nD) (t : Fin cfg0.N) (p : Fin 512) (k : Fin 4096) (r : Fin 8192)
    (hr : r.val = win0_3.index t (0 : Fin 2) * 512 + p.val) :
    (iblk m c 0 t : FVec Ideal S512x4096 .bf16) (ix2 p k) = (m ((c : Thread nD τ).loc main_arg0) : S8192x4096.Idx → EReal) (ix2 r k) := by
  obtain ⟨e0, e1, -⟩ := bands t
  unfold iblk
  rw [View.read_apply]
  show (V m c main_v19 : S8192x4096.Idx → EReal) _ = _
  rw [staged_x]
  congr 1
  funext a
  apply Fin.ext
  match a with
  | ⟨0, _⟩ => show win0_0.index t (0 : Fin 2) * 512 + 1 * p.val = r.val; omega
  | ⟨1, _⟩ => show win0_0.index t (1 : Fin 2) * 4096 + 1 * k.val = k.val; omega

/-- Reading the weights' window at point `t` out of ANY matrix of the weights' extent: entry (q, k) of the block is the matrix at
    row `s`, for `s` the `q`-th output feature of `t`'s column band. -/
theorem wblk_read (A : FVec Ideal S4096x4096 .bf16) (t : Fin cfg0.N) (q : Fin 1024) (k : Fin 4096) (s : Fin 4096)
    (hs : s.val = win0_3.index t (1 : Fin 2) * 1024 + q.val) :
    (((cfg0.win 1).blk t).view.read (Elt Ideal) A : FVec Ideal S1024x4096 .bf16) (ix2 q k) = A (ix2 s k) := by
  obtain ⟨-, -, e2, e3, -⟩ := bands t
  rw [View.read_apply]
  refine congrArg A (funext fun a => Fin.ext ?_)
  match a with
  | ⟨0, _⟩ => show win0_1.index t (0 : Fin 2) * 1024 + 1 * q.val = s.val; omega
  | ⟨1, _⟩ => show win0_1.index t (1 : Fin 2) * 4096 + 1 * k.val = k.val; omega

/-- So entry (q, k) of the weights' block at point `t` is the weight matrix at row `s`. -/
theorem wblk_apply (c : Dev nD) (t : Fin cfg0.N) (q : Fin 1024) (k : Fin 4096) (s : Fin 4096)
    (hs : s.val = win0_3.index t (1 : Fin 2) * 1024 + q.val) :
    (iblk m c 1 t : FVec Ideal S1024x4096 .bf16) (ix2 q k) = weights m c (ix2 s k) :=
  wblk_read (weights m c) t q k s hs

/-- Entry (0, q) of the bias block at point `t` is `bias[s]`, for `s` the `q`-th output feature of `t`'s column band. -/
theorem bblk_apply (c : Dev nD) (t : Fin cfg0.N) (z : Fin 1) (q : Fin 1024) (s : Fin 4096)
    (hs : s.val = win0_3.index t (1 : Fin 2) * 1024 + q.val) :
    (iblk m c 2 t : FVec Ideal S1x1024 .f32) (ix2 z q) = (m ((c : Thread nD τ).loc main_arg3) : S4096.Idx → EReal) (ix1 s) := by
  obtain ⟨-, -, -, -, e4, e5, -⟩ := bands t
  have hz : z.val = 0 := by omega
  unfold iblk
  rw [View.read_apply]
  show (V m c main_v21 : S1x4096.Idx → EReal) _ = _
  rw [← staged_bias_apply m c (0 : Fin 1) s]
  congr 1
  funext a
  apply Fin.ext
  match a with
  | ⟨0, _⟩ => show win0_2.index t (0 : Fin 2) * 1 + 1 * z.val = 0; omega
  | ⟨1, _⟩ => show win0_2.index t (1 : Fin 2) * 1024 + 1 * q.val = s.val; omega

end Cert.KernelIdeal.Staged

end
-- ==== Proof.KernelAffine.lean ====
/-
  The kernel's result array is the affine map.  At the point in column band J and row band I the block written back is
  rows 512·I …, columns 1024·J … of the result, and its entry (p, q) is

      (Σ_k x[512·I + p, k] · w[1024·J + q, k]) + bias[1024·J + q],

  which is the affine map at the array index the entry lands on.  The 64 blocks tile the [8192, 4096] result: the point that
  covers (r, s) is the one with I = r / 512 and J = s / 1024.
-/
import proofs.«138253_j82935818485772_1_alg».proof.Proof.Gen.KernelIdeal.Value
import proofs.«138253_j82935818485772_1_alg».proof.Proof.Affine
import proofs.«138253_j82935818485772_1_alg».proof.Proof.TileAffine
import proofs.«138253_j82935818485772_1_alg».proof.Proof.Staged
import Idealize.ShloMosaic.Lib.Pipeline.Value
import Idealize.ShloMosaic.Lib.ValueIdx

noncomputable section

open scoped BigOperators

namespace Cert.KernelIdeal.Whole

open Cert.KernelIdeal Cert.KernelIdeal.Gen Cert.KernelIdeal.Value Cert.KernelIdeal.Staged
open Idealize.ShloMosaic Idealize.ShloMosaic.TcCoe Idealize.SL.Sem
open Idealize.ShloMosaic.ValueIdx Cert.Affine
open Idealize.ShloMosaic.Pipeline (Dat)

variable (m : (ℓ : Loc nD τ sig) → Buf (Elt Ideal) ℓ) (ρ : Dev nD → PrngReg)

/-! ## One tile is a tile of the affine map -/

/-- If the three blocks hold the rows of `x`, the rows of `w` and the entries of `bias` that the array index (r, s) asks for,
    the body's tile at (p, q) is the affine map at (r, s). -/
theorem tile_is_affine (x : FVec Ideal Sx .f32) (w : FVec Ideal Sw .f32) (bias : FVec Ideal Sb .f32)
    (xb : FVec Ideal S512x4096 .bf16) (wb : FVec Ideal S1024x4096 .bf16) (bb : FVec Ideal S1x1024 .f32)
    (p : Fin 512) (q : Fin 1024) (r : Fin 8192) (s : Fin 4096)
    (hx : ∀ k : Fin 4096, xb (ix2 p k) = x (ix2 r k))
    (hw : ∀ k : Fin 4096, wb (ix2 q k) = w (ix2 s k))
    (hb : bb (ix2 (0 : Fin 1) q) = bias (ix1 s)) :
    k0_pay1 (F := Ideal) xb wb bb (ix2 p q) = affine x w bias (ix2 r s) := by
  rw [Tile.tile_apply, affine_apply, hb]
  exact congrArg (· + bias (ix1 s)) (Finset.sum_congr rfl fun k _ => by rw [hx k, hw k])

/-! ## From the blocks to the array -/

theorem zero_offsets : (![0, 0] : Fin 2 → Nat) = fun _ => 0 := funext fun a => by fin_cases a <;> rfl

/-- The affine map of the activations and the bias the program was launched with and the weight matrix the region reads. -/
abbrev result (c : Dev nD) : FVec Ideal Sx .f32 :=
  affine (m ((c : Thread nD τ).loc main_arg0)) (weights m c) (m ((c : Thread nD τ).loc main_arg3))

/-- What the body leaves in the output's buffer at point `t`, at (p, q): the affine map at row 512·I + p, column 1024·J + q. -/
theorem out_apply (c : Dev nD) (t : Fin cfg0.N) (p : Fin 512) (q : Fin 1024) (r : Fin 8192) (s : Fin 4096)
    (hr : r.val = win0_3.index t (0 : Fin 2) * 512 + p.val) (hs : s.val = win0_3.index t (1 : Fin 2) * 1024 + q.val) :
    out0_3 (F := Ideal) (iblk m c 0 t) (iblk m c 1 t) (iblk m c 2 t) (ix2 p q) = result m c (ix2 r s) := by
  unfold out0_3
  rw [View.canon_unit_zero zero_offsets]
  simp only [View.ld_unit_zero (S := S512x4096) zero_offsets, View.ld_unit_zero (S := S1024x4096) zero_offsets,
    View.ld_unit_zero (S := S1x1024) zero_offsets]
  exact tile_is_affine (m ((c : Thread nD τ).loc main_arg0)) (weights m c) (m ((c : Thread nD τ).loc main_arg3))
    (iblk m c 0 t) (iblk m c 1 t) (iblk m c 2 t) p q r s
    (fun k => xblk_apply m c t p k r hr) (fun k => wblk_apply m c t q k s hs) (bblk_apply m c t 0 q s hs)

/-- What point `t` writes back is its block of the affine map. -/
theorem flushed_eq (c : Dev nD) (t : Fin cfg0.N) :
    (dats m 0 c).flushed 3 t = ((cfg0.win 3).blk t).view.read (Elt Ideal) (result m c) := by
  rw [Value.flushed3]
  obtain ⟨-, -, -, -, -, -, e6, e7⟩ := bands t
  funext j
  rw [View.read_apply]
  have hp : (j 0).val < 512 := (j 0).isLt
  have hq : (j 1).val < 1024 := (j 1).isLt
  have hj : j = ix2 (⟨(j 0).val, hp⟩ : Fin 512) (⟨(j 1).val, hq⟩ : Fin 1024) := funext fun a => by
    match a with
    | ⟨0, _⟩ => rfl
    | ⟨1, _⟩ => rfl
  have hi : ((cfg0.win 3).blk t).view.emb j
      = ix2 (⟨win0_3.index t (0 : Fin 2) * 512 + (j 0).val, by omega⟩ : Fin 8192) (⟨win0_3.index t (1 : Fin 2) * 1024 + (j 1).val, by omega⟩ : Fin 4096) :=
    funext fun a => Fin.ext (by
      match a with
      | ⟨0, _⟩ => show win0_3.index t (0 : Fin 2) * 512 + 1 * (j 0).val = win0_3.index t (0 : Fin 2) * 512 + (j 0).val; omega
      | ⟨1, _⟩ => show win0_3.index t (1 : Fin 2) * 1024 + 1 * (j 1).val = win0_3.index t (1 : Fin 2) * 1024 + (j 1).val; omega)
  refine Eq.trans ?_ (congrArg (result m c) hi).symm
  refine (congrArg (out0_3 (F := Ideal) (iblk m c 0 t) (iblk m c 1 t) (iblk m c 2 t)) hj).trans ?_
  exact out_apply m c t _ _ _ _ rfl rfl

/-- An index of the result is in point `t`'s block iff each coordinate is in the block's band on its axis. -/
theorem mem_blk (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v22).slice (win0_3.rect t)).set ↔ _
  rw [View.set_slice_whole, Rect.mem_set_unit]
  exact Iff.rfl

/-- The blocks tile the result: (r, s) is in the block of the point whose row band is r / 512 and column band s / 1024. -/
theorem covered (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  obtain ⟨t, ht⟩ := bands_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- So after the run the result array holds the affine map. -/
theorem final (c : Dev nD) : (dats m 0 c).arrAt 3 cfg0.N = result m c :=
  (dats m 0 c).arrAt_eq_of_cover 3 (result m c) (fun t _ => flushed_eq m c t) covered

/-- The kernel's run: it terminates with the result array at the affine map and the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.SameWeights.lean ====
/-
  Both programs fill the weight matrix the same way: a zero matrix of extent [4096, 4096], the two coordinate rows of the
  index list with negative entries wrapped by the extent, paired up entry by entry, and the values scattered to those
  coordinates.  The operations are the same, in the same order, on the same arguments, so the matrix the kernel's region
  reads is the reference's stage that holds the filled matrix, after one change of float format: an equality of terms, at
  any reading of the floats.  Nothing about what a scatter does with repeated or out-of-range coordinates is needed, because
  both sides do the same thing with them.  Over the extended reals the change of format is the identity.
-/
import proofs.«138253_j82935818485772_1_alg».proof.Proof.Gen.KernelIdeal.Frame
import proofs.«138253_j82935818485772_1_alg».proof.Proof.Gen.ReferenceIdeal.Read
import Idealize.ShloMosaic.Lib.StableHlo.Run

noncomputable section

namespace Cert.Proof.Weights

open Idealize.ShloMosaic Idealize.ShloMosaic.TcCoe Idealize.SL.Sem

section AnyFloats
variable {F : FTy → Type} [FloatOps F]

set_option maxHeartbeats 2000000 in
/-- At any reading of the floats: the matrix the kernel's region reads is the reference's filled-matrix stage of the same
    index list and values, narrowed. -/
theorem staged_eq (m : (ℓ : Loc Cert.KernelIdeal.nD Cert.KernelIdeal.τ Cert.KernelIdeal.sig) → Buf (Elt F) ℓ) (c : Dev Cert.KernelIdeal.nD) :
    Cert.KernelIdeal.Gen.V m c Cert.KernelIdeal.main_v20
      = truncf .bf16 (Cert.ReferenceIdeal.Read.val_main_v18 (F := F)
          (m ((c : Thread Cert.KernelIdeal.nD Cert.KernelIdeal.τ).loc Cert.KernelIdeal.main_arg1))
          (m ((c : Thread Cert.KernelIdeal.nD Cert.KernelIdeal.τ).loc Cert.KernelIdeal.main_arg2))) Cert.KernelIdeal.Facts₀.bitsLt_bf16_f32 := by
  dsimp only [Cert.KernelIdeal.Gen.V, Cert.KernelIdeal.Gen.hostOps0]
  after_results
  rfl

end AnyFloats

/-- Over the extended reals narrowing a vector of floats is the identity (stated for a variable, so that nothing is unfolded). -/
theorem narrow_id {s : Shape} (a : FVec Ideal s .f32) (h : FTy.bits .bf16 < FTy.bits .f32) :
    (truncf .bf16 a h : s.Idx → EReal) = a := rfl

/-- Over the extended reals: the matrix the kernel's region reads IS the reference's filled-matrix stage. -/
theorem kernel_weights (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v20 : Cert.KernelIdeal.S4096x4096.Idx → EReal)
      = Cert.ReferenceIdeal.Read.val_main_v18 (F := Ideal)
          (m ((c : Thread Cert.KernelIdeal.nD Cert.KernelIdeal.τ).loc Cert.KernelIdeal.main_arg1))
          (m ((c : Thread Cert.KernelIdeal.nD Cert.KernelIdeal.τ).loc Cert.KernelIdeal.main_arg2)) :=
  (staged_eq (F := Ideal) m c).trans (narrow_id _ _)

end Cert.Proof.Weights

end
-- ==== Proof.lean ====
/-
  A sparse linear layer computed densely.  Both programs first lay the sparse weights out as a [4096, 4096] matrix w (one
  row per output feature) by the same host scatter of the same values to the same coordinates, and then compute

      out[b, o] = (Σ_k x[b, k] · w[o, k]) + bias[o]        (`Cert.Affine.affine`).

  The reference transposes w and contracts the activations with the transpose on the host.  The kernel narrows x and w to
  a shorter float format — over the extended reals the identity — and tiles the product: 4 column bands by 16 row bands,
  each grid point multiplying a band of rows of x with a band of rows of w over the whole contraction axis and adding the
  band of the bias.  Each tile is a tile of the same affine map and the tiles cover the result, so the two results are one
  function of the arguments, element by element.  No law beyond re-indexing the one sum is used, so the finiteness of the
  inputs is never opened; and the scatter is never opened either: both sides apply it to the same operands.

  The three frames are the generated ones (the reference's is its generated run with the result dropped); the
  idealization rewrote no operation, so there is nothing to preserve.
-/
import proofs.«138253_j82935818485772_1_alg».proof.Defs
import proofs.«138253_j82935818485772_1_alg».proof.Proof.Gen.Kernel
import proofs.«138253_j82935818485772_1_alg».proof.Proof.Gen.Kernel.Skeleton
import proofs.«138253_j82935818485772_1_alg».proof.Proof.Gen.Kernel.Launch
import proofs.«138253_j82935818485772_1_alg».proof.Proof.Gen.Kernel.Points
import proofs.«138253_j82935818485772_1_alg».proof.Proof.Gen.Kernel.Frame
import proofs.«138253_j82935818485772_1_alg».proof.Proof.Gen.KernelIdeal
import proofs.«138253_j82935818485772_1_alg».proof.Proof.Gen.KernelIdeal.Skeleton
import proofs.«138253_j82935818485772_1_alg».proof.Proof.Gen.KernelIdeal.Launch
import proofs.«138253_j82935818485772_1_alg».proof.Proof.Gen.KernelIdeal.Points
import proofs.«138253_j82935818485772_1_alg».proof.Proof.Gen.KernelIdeal.Frame
import proofs.«138253_j82935818485772_1_alg».proof.Proof.Gen.ReferenceIdeal
import proofs.«138253_j82935818485772_1_alg».proof.Proof.Gen.Pre_finite_inputs
import proofs.«138253_j82935818485772_1_alg».proof.Proof.Gen.KernelIdeal.Value
import proofs.«138253_j82935818485772_1_alg».proof.Proof.Gen.ReferenceIdeal.Run
import proofs.«138253_j82935818485772_1_alg».proof.Proof.Gen.ReferenceIdeal.Read
import proofs.«138253_j82935818485772_1_alg».proof.Proof.Affine
import proofs.«138253_j82935818485772_1_alg».proof.Proof.RefAffine
import proofs.«138253_j82935818485772_1_alg».proof.Proof.KernelAffine
import proofs.«138253_j82935818485772_1_alg».proof.Proof.SameWeights
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a line of host operations: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the affine map of the activations, the filled
    weight matrix and the bias in their result arrays: the kernel tile by tile, the reference by its transpose and product;
    and the filled weight matrix is one term on both sides. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefAffine.result_eq,
    (hagree c).1, (hagree c).2.1, (hagree c).2.2.1, (hagree c).2.2.2]
  -- the matrix the region reads is the reference's filled matrix
  have hw : (Cert.KernelIdeal.Staged.weights m c : Cert.KernelIdeal.S4096x4096.Idx → EReal)
      = Cert.ReferenceIdeal.Read.val_main_v18 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) :=
    (Cert.KernelIdeal.Staged.weights_eq m c).trans (Cert.Proof.Weights.kernel_weights m c)
  show Cert.Affine.affine _ _ _ = Cert.Affine.affine _ (Cert.KernelIdeal.Staged.weights m c) _
  rw [hw]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
